-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x100000 : Shape := ⟨2, ![2, 100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S2x100000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S2x100000 : Shape := ⟨2, ![2, 100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩
abbrev S1x100000 : Shape := ⟨2, ![1, 100000]⟩
abbrev S100000x1 : Shape := ⟨2, ![100000, 1]⟩
abbrev S4000x1 : Shape := ⟨2, ![4000, 1]⟩
abbrev S4000 : Shape := ⟨1, ![4000]⟩

abbrev nBuf : Space → Nat
  | .hbm => 112
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S1x100000, .i32⟩
  | .hbm, ⟨89, _⟩ => ⟨S100000, .i32⟩
  | .hbm, ⟨90, _⟩ => ⟨S1x100000, .i32⟩
  | .hbm, ⟨91, _⟩ => ⟨S100000, .i32⟩
  | .hbm, ⟨92, _⟩ => ⟨S_, .i32⟩
  | .hbm, ⟨93, _⟩ => ⟨S100000, .i32⟩
  | .hbm, ⟨94, _⟩ => ⟨S100000, .i1⟩
  | .hbm, ⟨95, _⟩ => ⟨S_, .i32⟩
  | .hbm, ⟨96, _⟩ => ⟨S100000, .i32⟩
  | .hbm, ⟨97, _⟩ => ⟨S100000, .i32⟩
  | .hbm, ⟨98, _⟩ => ⟨S100000, .i32⟩
  | .hbm, ⟨99, _⟩ => ⟨S100000x1, .i32⟩
  | .hbm, ⟨100, _⟩ => ⟨S100000x128, .f32⟩
  | .hbm, ⟨101, _⟩ => ⟨S_, .i32⟩
  | .hbm, ⟨102, _⟩ => ⟨S100000, .i32⟩
  | .hbm, ⟨103, _⟩ => ⟨S100000, .i1⟩
  | .hbm, ⟨104, _⟩ => ⟨S_, .i32⟩
  | .hbm, ⟨105, _⟩ => ⟨S100000, .i32⟩
  | .hbm, ⟨106, _⟩ => ⟨S100000, .i32⟩
  | .hbm, ⟨107, _⟩ => ⟨S100000, .i32⟩
  | .hbm, ⟨108, _⟩ => ⟨S100000x1, .i32⟩
  | .hbm, ⟨109, _⟩ => ⟨S100000x128, .f32⟩
  | .hbm, ⟨110, _⟩ => ⟨S100000x1, .f32⟩
  | .hbm, ⟨111, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_15 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S100000_S100000x1_0 : S100000.BroadcastsInDim S100000x1 (![0] : Fin 1 → Fin S100000x1.rank)
  reduces_S4000x128_S4000 : S4000x128.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S100000x1_S100000x128_1_0_n_n_0_1_1128_wf : GatherDims.WF S100000x128 S100000x1 S100000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S100000x1.size a
  hwx4_2 : ∀ i : grid4.Coords, EltTy.bits .f32 = 32 ∨ (Rect.block (s := S100000x1) S4000x1.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v82) S4000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x100000 : Shape := ⟨2, ![2, 100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x100000 : Shape := ⟨2, ![1, 100000]⟩
abbrev S100000x1 : Shape := ⟨2, ![100000, 1]⟩

abbrev nBuf : Space → Nat
  | .hbm => 160
  | .vmem => 0
  | .smem => 0
  | _ => 0

abbrev hbmTy0_0 (i : Nat) : BufTy := match i % 128 with
  | 0 => ⟨S100000x128, .f32⟩
  | 1 => ⟨S2x1600000, .i32⟩
  | 2 => ⟨S2x100000, .i32⟩
  | 3 => ⟨S128x128, .f32⟩
  | 4 => ⟨S128, .f32⟩
  | 5 => ⟨S128x128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S_, .f32⟩
  | 86 => ⟨S100000, .f32⟩
  | 87 => ⟨S100000, .f32⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x1, .f32⟩
  | 123 => ⟨S1700000x128, .f32⟩
  | 124 => ⟨S1700000x128, .f32⟩
  | 125 => ⟨S_, .f32⟩
  | 126 => ⟨S100000x128, .f32⟩
  | 127 => ⟨S1700000x1, .i32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S1x100000, .i32⟩
  | 8 => ⟨S100000, .i32⟩
  | 9 => ⟨S1x100000, .i32⟩
  | 10 => ⟨S100000, .i32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x128, .f32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S100000x128, .f32⟩
  | 29 => ⟨S100000x128, .f32⟩
  | 30 => ⟨S_, .f32⟩
  | 31 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v62 : Ref sig .tc := ⟨.hbm, 92, rfl⟩
abbrev main_c_15 : Ref sig .tc := ⟨.hbm, 93, rfl⟩
abbrev main_v63 : Ref sig .tc := ⟨.hbm, 94, rfl⟩
abbrev main_v64 : Ref sig .tc := ⟨.hbm, 95, rfl⟩
abbrev main_c_16 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_17 : Ref sig .tc := ⟨.hbm, 102, rfl⟩
abbrev main_v70 : Ref sig .tc := ⟨.hbm, 103, rfl⟩
abbrev main_v71 : Ref sig .tc := ⟨.hbm, 104, rfl⟩
abbrev main_c_18 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_19 : Ref sig .tc := ⟨.hbm, 113, rfl⟩
abbrev main_v79 : Ref sig .tc := ⟨.hbm, 114, rfl⟩
abbrev main_v80 : Ref sig .tc := ⟨.hbm, 115, rfl⟩
abbrev main_c_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_21 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_c_22 : Ref sig .tc := ⟨.hbm, 139, rfl⟩
abbrev main_v100 : Ref sig .tc := ⟨.hbm, 140, rfl⟩
abbrev main_v101 : Ref sig .tc := ⟨.hbm, 141, rfl⟩
abbrev main_c_23 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_c_24 : Ref sig .tc := ⟨.hbm, 148, rfl⟩
abbrev main_v107 : Ref sig .tc := ⟨.hbm, 149, rfl⟩
abbrev main_v108 : Ref sig .tc := ⟨.hbm, 150, rfl⟩
abbrev main_c_25 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_26 : Ref sig .tc := ⟨.hbm, 158, rfl⟩
abbrev main_v115 : Ref sig .tc := ⟨.hbm, 159, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S100000_S100000x1_0 : S100000.BroadcastsInDim S100000x1 (![0] : Fin 1 → Fin S100000x1.rank)
  reducesTo_S100000x128_S100000_d1 : S100000x128.ReducesTo [1] S100000
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S100000x1_S100000x128_1_0_n_n_0_1_1128_wf : GatherDims.WF S100000x128 S100000x1 S100000x128 [1] [0] [] [0] [] 1 ![1, 128]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf

class Facts : Prop extends Facts₀ where

variable [Facts]
-- ==== Proof.KernelHost.lean ====
/- The kernel program's host stretches, read one at a time at an arbitrary valuation of the buffers.

   Between its grid regions the kernel's program does on the host exactly what the reference does there: it builds
   the self-looped source and destination lists and the symmetric normalisation of every edge once, before the first
   region; after each dense product it gathers the product's rows along the edges, scales them, and sums them into the
   destination rows; it reshapes each bias to a row; before the decoder it gathers the two rows of every labelled
   edge; at the end it flattens the decoder's column. Each lemma below reads one stretch: given what the stretch's
   input buffers hold, as stages of the reference, its output buffer holds the reference's next stage. The
   reference recomputes the edge lists and the normalisation for its second layer; those second copies are the same
   functions of the edge array as the first, which the closing comparison sees by unfolding both. Everything is stated
   for any family of float values: no arithmetic is opened, the two sides are the same operations in the same order. -/
import proofs.«143984_j25400436589171_1_alg».proof.Proof.Gen.KernelIdeal.Launch
import proofs.«143984_j25400436589171_1_alg».proof.Proof.RefRead
import Idealize.ShloMosaic.Lib.StableHlo.Run

set_option maxRecDepth 16384

noncomputable section

namespace Cert.KernelIdeal.HostStretch

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]

/-- A stretch leaves a buffer that none of its operations writes as it was. -/
macro "host_keeps" : tactic => `(tactic| (
  refine StableHlo.after_of_forall_not_mem _ _ (List.forall_iff_forall_mem.mp (by
    simp only [hostOps0, hostOps0_1, hostOps0_2, hostOps1, hostOps3, hostOps4, hostOps5, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))))

/-- Reads a stretch's fold at one buffer: every operation's result at its own buffer is its function of its operands,
    and at another buffer what was there; one pass first, then the same rewrites inside a joined list's operands. -/
macro "read_stretch" : tactic => `(tactic| (
  after_results_simp
  repeat (first
    | rw [nullary_result] | rw [unary_result] | rw [binary_result] | rw [ternary_result] | rw [quaternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide))))

variable (W : Valuation τ sig (Elt F))

variable (x0 : (⟨S100000x128, .f32⟩ : BufTy).Contents (Elt F)) (x1 : (⟨S2x1600000, .i32⟩ : BufTy).Contents (Elt F))
  (x2 : (⟨S2x100000, .i32⟩ : BufTy).Contents (Elt F)) (x3 : (⟨S128x128, .f32⟩ : BufTy).Contents (Elt F))
  (x4 : (⟨S128, .f32⟩ : BufTy).Contents (Elt F)) (x5 : (⟨S128x128, .f32⟩ : BufTy).Contents (Elt F))
  (x6 : (⟨S128, .f32⟩ : BufTy).Contents (Elt F))

/-! ## Before the first region: the edge lists and the normalisation -/

/-- The three stretches before the first region, one after the other. -/
abbrev beforeFirstRegion : Valuation τ sig (Elt F) :=
  StableHlo.after hostOps0_2 (StableHlo.after hostOps0_1 (StableHlo.after hostOps0 W))

set_option maxHeartbeats 4000000 in
/-- The sources with a self-loop appended for every node. -/
theorem sources (h1 : W (Proc.devRef .tc main_arg1) = x1) :
    beforeFirstRegion W (Proc.devRef .tc main_v5) = val_main_v5 (F := F) x1 := by
  dsimp only [beforeFirstRegion, hostOps0_2, hostOps0_1, hostOps0]
  read_stretch
  rw [h1]
  rfl

set_option maxHeartbeats 4000000 in
/-- The destinations with a self-loop appended for every node. -/
theorem destinations (h1 : W (Proc.devRef .tc main_arg1) = x1) :
    beforeFirstRegion W (Proc.devRef .tc main_v6) = val_main_v6 (F := F) x1 := by
  dsimp only [beforeFirstRegion, hostOps0_2, hostOps0_1, hostOps0]
  read_stretch
  rw [h1]
  rfl

set_option maxHeartbeats 8000000 in
/-- Every edge's normalisation: the inverse square roots of the two end nodes' degrees, multiplied. -/
theorem normalisation (h1 : W (Proc.devRef .tc main_arg1) = x1) :
    beforeFirstRegion W (Proc.devRef .tc main_v31) = val_main_v31 (F := F) x1 := by
  dsimp only [beforeFirstRegion, hostOps0_2, hostOps0_1, hostOps0]
  read_stretch
  rw [h1]
  rfl

theorem before_first_region_keeps_arg0 :
    beforeFirstRegion W (Proc.devRef .tc main_arg0) = W (Proc.devRef .tc main_arg0) := by
  dsimp only [beforeFirstRegion]
  exact Eq.trans (by host_keeps) (Eq.trans (by host_keeps) (by host_keeps))

theorem before_first_region_keeps_arg2 :
    beforeFirstRegion W (Proc.devRef .tc main_arg2) = W (Proc.devRef .tc main_arg2) := by
  dsimp only [beforeFirstRegion]
  exact Eq.trans (by host_keeps) (Eq.trans (by host_keeps) (by host_keeps))

theorem before_first_region_keeps_arg3 :
    beforeFirstRegion W (Proc.devRef .tc main_arg3) = W (Proc.devRef .tc main_arg3) := by
  dsimp only [beforeFirstRegion]
  exact Eq.trans (by host_keeps) (Eq.trans (by host_keeps) (by host_keeps))

theorem before_first_region_keeps_arg4 :
    beforeFirstRegion W (Proc.devRef .tc main_arg4) = W (Proc.devRef .tc main_arg4) := by
  dsimp only [beforeFirstRegion]
  exact Eq.trans (by host_keeps) (Eq.trans (by host_keeps) (by host_keeps))

theorem before_first_region_keeps_arg5 :
    beforeFirstRegion W (Proc.devRef .tc main_arg5) = W (Proc.devRef .tc main_arg5) := by
  dsimp only [beforeFirstRegion]
  exact Eq.trans (by host_keeps) (Eq.trans (by host_keeps) (by host_keeps))

theorem before_first_region_keeps_arg6 :
    beforeFirstRegion W (Proc.devRef .tc main_arg6) = W (Proc.devRef .tc main_arg6) := by
  dsimp only [beforeFirstRegion]
  exact Eq.trans (by host_keeps) (Eq.trans (by host_keeps) (by host_keeps))

/-! ## After the first dense product: the first layer's aggregate, and its bias as a row -/

set_option maxHeartbeats 4000000 in
/-- The product's rows gathered along the edges, scaled, and summed into the destination rows. -/
theorem aggregate1 (h32 : W (Proc.devRef .tc main_v32) = val_main_v32 (F := F) x0 x3)
    (h5 : W (Proc.devRef .tc main_v5) = val_main_v5 (F := F) x1) (h6 : W (Proc.devRef .tc main_v6) = val_main_v6 (F := F) x1)
    (h31 : W (Proc.devRef .tc main_v31) = val_main_v31 (F := F) x1) :
    StableHlo.after (hostOps1 (F := F)) W (Proc.devRef .tc main_v45) = val_main_v45 (F := F) x0 x1 x3 := by
  dsimp only [hostOps1]
  read_stretch
  rw [h32, h5, h6, h31]
  rfl

/-- The first bias, as a row. -/
theorem biasRow1 (h4 : W (Proc.devRef .tc main_arg4) = x4) :
    StableHlo.after (hostOps1 (F := F)) W (Proc.devRef .tc main_v46) = shapeCast S1x128 x4 shapeCasts_S128_S1x128 := by
  dsimp only [hostOps1]
  read_stretch
  rw [h4]
  rfl

theorem aggregate1_keeps_v5 :
    StableHlo.after (hostOps1 (F := F)) W (Proc.devRef .tc main_v5) = W (Proc.devRef .tc main_v5) := by
  host_keeps

theorem aggregate1_keeps_v6 :
    StableHlo.after (hostOps1 (F := F)) W (Proc.devRef .tc main_v6) = W (Proc.devRef .tc main_v6) := by
  host_keeps

theorem aggregate1_keeps_v31 :
    StableHlo.after (hostOps1 (F := F)) W (Proc.devRef .tc main_v31) = W (Proc.devRef .tc main_v31) := by
  host_keeps

theorem aggregate1_keeps_arg2 :
    StableHlo.after (hostOps1 (F := F)) W (Proc.devRef .tc main_arg2) = W (Proc.devRef .tc main_arg2) := by
  host_keeps

theorem aggregate1_keeps_arg5 :
    StableHlo.after (hostOps1 (F := F)) W (Proc.devRef .tc main_arg5) = W (Proc.devRef .tc main_arg5) := by
  host_keeps

theorem aggregate1_keeps_arg6 :
    StableHlo.after (hostOps1 (F := F)) W (Proc.devRef .tc main_arg6) = W (Proc.devRef .tc main_arg6) := by
  host_keeps

/-! ## After the second dense product: the second layer's aggregate, and its bias as a row -/

set_option maxHeartbeats 8000000 in
/-- The same gather, scaling and row sums, of the second product; the reference's second copies of the edge lists
    and of the normalisation are the first ones again. -/
theorem aggregate2 (h48 : W (Proc.devRef .tc main_v48) = val_main_v78 (F := F) x0 x1 x3 x4 x5)
    (h5 : W (Proc.devRef .tc main_v5) = val_main_v5 (F := F) x1) (h6 : W (Proc.devRef .tc main_v6) = val_main_v6 (F := F) x1)
    (h31 : W (Proc.devRef .tc main_v31) = val_main_v31 (F := F) x1) :
    StableHlo.after (hostOps3 (F := F)) W (Proc.devRef .tc main_v61) = val_main_v91 (F := F) x0 x1 x3 x4 x5 := by
  dsimp only [hostOps3]
  read_stretch
  rw [h48, h5, h6, h31]
  rfl

/-- The second bias, as a row. -/
theorem biasRow2 (h6 : W (Proc.devRef .tc main_arg6) = x6) :
    StableHlo.after (hostOps3 (F := F)) W (Proc.devRef .tc main_v62) = shapeCast S1x128 x6 shapeCasts_S128_S1x128 := by
  dsimp only [hostOps3]
  read_stretch
  rw [h6]
  rfl

theorem aggregate2_keeps_arg2 :
    StableHlo.after (hostOps3 (F := F)) W (Proc.devRef .tc main_arg2) = W (Proc.devRef .tc main_arg2) := by
  host_keeps

/-! ## Before the decoder: the two rows of every labelled edge -/

set_option maxHeartbeats 4000000 in
/-- The rows of the last layer's features at the labelled edges' first ends. -/
theorem decoderRows1 (h63 : W (Proc.devRef .tc main_v63) = val_main_v95 (F := F) x0 x1 x3 x4 x5 x6)
    (h2 : W (Proc.devRef .tc main_arg2) = x2) :
    StableHlo.after (hostOps4 (F := F)) W (Proc.devRef .tc main_v74) = val_main_v106 (F := F) x0 x1 x2 x3 x4 x5 x6 := by
  dsimp only [hostOps4]
  read_stretch
  rw [h63, h2]
  rfl

set_option maxHeartbeats 4000000 in
/-- The rows at their second ends. -/
theorem decoderRows2 (h63 : W (Proc.devRef .tc main_v63) = val_main_v95 (F := F) x0 x1 x3 x4 x5 x6)
    (h2 : W (Proc.devRef .tc main_arg2) = x2) :
    StableHlo.after (hostOps4 (F := F)) W (Proc.devRef .tc main_v81) = val_main_v113 (F := F) x0 x1 x2 x3 x4 x5 x6 := by
  dsimp only [hostOps4]
  read_stretch
  rw [h63, h2]
  rfl

/-! ## After the decoder: the column flattened -/

/-- The decoder's column, flattened. -/
theorem flattened (y : (⟨S100000x1, .f32⟩ : BufTy).Contents (Elt F)) (h82 : W (Proc.devRef .tc main_v82) = y) :
    StableHlo.after (hostOps5 (F := F)) W (Proc.devRef .tc main_v83) = shapeCast S100000 y shapeCasts_S100000x1_S100000 := by
  dsimp only [hostOps5]
  read_stretch
  rw [h82]
  rfl

end Cert.KernelIdeal.HostStretch

end
-- ==== Proof.Spec.lean ====
/- What each of the kernel's five grid regions computes, as one function of whole arrays over the extended
   reals, index by index.

   A graph-convolution layer is: a dense product of the node features with a weight matrix; a gather of the
   product's rows along the edges, scaled by the edge's normalisation, and summed into the destination rows;
   then a bias added to every row and the negative part cut off. The decoder reads two rows of the last layer's
   features per labelled edge and takes their inner product. The gather, the scaling and the row sums stay on the
   host in both programs; the three functions below are the parts that run in grid regions:

   * `linear a w`     row i, column j:  the sum over k of a (i, k) · w (k, j);
   * `biasRelu x b`   row i, column j:  max (x (i, j) + b (0, j)) 0, the bias a single row;
   * `edgeDot a b`    row i, column 0:  the sum over k of a (i, k) · b (i, k).

   The zero is kept as the float word it is printed as; no law below needs its value. -/
import Idealize.ShloMosaic.PureOps.Ideal
import Idealize.ShloMosaic.Lib.ValueIdx

noncomputable section

open scoped BigOperators

namespace Cert.GcnSpec

open Idealize.ShloMosaic Idealize.ShloMosaic.ValueIdx

/-- Node features: one row of 128 per node. -/
abbrev SNodes : Shape := ⟨2, ![100000, 128]⟩
/-- A weight matrix. -/
abbrev SWeight : Shape := ⟨2, ![128, 128]⟩
/-- A bias, as a single row. -/
abbrev SBiasRow : Shape := ⟨2, ![1, 128]⟩
/-- One score per labelled edge, as a column. -/
abbrev SScoreCol : Shape := ⟨2, ![100000, 1]⟩

/-- The dense product: entry (i, j) is the sum over k of a (i, k) · w (k, j). -/
def linear (a : SNodes.Idx → EReal) (w : SWeight.Idx → EReal) : SNodes.Idx → EReal :=
  fun i => ∑ k : Fin 128, a (ix2 (i 0) k) * w (ix2 k (i 1))

/-- The bias row added to every row, then the maximum with zero. -/
def biasRelu (x : SNodes.Idx → EReal) (b : SBiasRow.Idx → EReal) : SNodes.Idx → EReal :=
  fun i => max (x i + b (ix2 (0 : Fin 1) (i 1))) (Ideal.ofBits .f32 0x00000000#32)

/-- The inner product of row i of the two arrays, kept as a column. -/
def edgeDot (a b : SNodes.Idx → EReal) : SScoreCol.Idx → EReal :=
  fun i => ∑ k : Fin 128, a (ix2 (i 0) k) * b (ix2 (i 0) k)

theorem linear_apply (a : SNodes.Idx → EReal) (w : SWeight.Idx → EReal) (p : Fin 100000) (q : Fin 128) :
    linear a w (ix2 p q) = ∑ k : Fin 128, a (ix2 p k) * w (ix2 k q) := rfl

theorem biasRelu_apply (x : SNodes.Idx → EReal) (b : SBiasRow.Idx → EReal) (p : Fin 100000) (q : Fin 128) :
    biasRelu x b (ix2 p q) = max (x (ix2 p q) + b (ix2 (0 : Fin 1) q)) (Ideal.ofBits .f32 0x00000000#32) := rfl

theorem edgeDot_apply (a b : SNodes.Idx → EReal) (p : Fin 100000) (u : Fin 1) :
    edgeDot a b (ix2 p u) = ∑ k : Fin 128, a (ix2 p k) * b (ix2 p k) := rfl

end Cert.GcnSpec

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.RegionLinear.lean ====
/- The two dense-product regions: after the region its output array is the product of its two input arrays. -/
import proofs.«143984_j25400436589171_1_alg».proof.Proof.Gen.KernelIdeal.Frame
import proofs.«143984_j25400436589171_1_alg».proof.Proof.Spec
import proofs.«143984_j25400436589171_1_alg».proof.Proof.LibDotPlain
import Idealize.ShloMosaic.Lib.Pipeline.Value
import Idealize.ShloMosaic.Lib.ValueIdx
set_option maxRecDepth 16384

noncomputable section

open scoped BigOperators

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered: every statement below holds at any such contents
variable (V : (c : Dev nD) → (b : Ref sig .tc) → Buf (Elt Ideal) ((c : Thread nD τ).loc b))

/-- The zero offsets of a whole-buffer rectangle, however they are spelt. -/
theorem zeroOffsets : (![0, 0] : Fin 2 → Nat) = fun _ => 0 := funext fun a => by fin_cases a <;> rfl

/-! ## Region 0: rows 4000·t … 4000·t + 3999 of the features, times the whole first weight matrix -/

/-- One block of the product: entry (p, q) of the body's result is row p of the feature block against column q of
    the weight matrix. Narrowing both operands to bf16 changes nothing over the extended reals, and the
    accumulator starts at zero, so only the contraction sum is left. -/
theorem blockProduct0 (x0 : Vec Ideal S4000x128 .f32) (x1 : Vec Ideal S128x128 .f32) (p : Fin 4000) (q : Fin 128) :
    k0_pay1 x0 x1 (ix2 p q) = ∑ k : Fin 128, x0 (ix2 p k) * x1 (ix2 k q) := by
  unfold k0_pay1
  exact Cert.DotPlain.matmul_zero_rows_cols (φ₁ := .bf16) (φ₂ := .bf16) dot_S4000x128_S128x128_S4000x128_1_0_0_1_n_n
    rfl rfl rfl rfl rfl rfl none (truncf .bf16 x0 bitsLt_bf16_f32) (truncf .bf16 x1 bitsLt_bf16_f32) p q

/-- The block's entry (p, q) is the whole-array product at array index i, as soon as row p of the feature block is
    row i₀ of the feature array and column q of the weight block is column i₁ of the weight array. -/
theorem blockProduct0_eq_linear (A : GcnSpec.SNodes.Idx → EReal) (W : GcnSpec.SWeight.Idx → EReal)
    (x0 : Vec Ideal S4000x128 .f32) (x1 : Vec Ideal S128x128 .f32) (i : GcnSpec.SNodes.Idx) (p : Fin 4000) (q : Fin 128)
    (hrow : ∀ k : Fin 128, x0 (ix2 p k) = A (ix2 (i 0) k)) (hcol : ∀ k : Fin 128, x1 (ix2 k q) = W (ix2 k (i 1))) :
    k0_pay1 x0 x1 (ix2 p q) = GcnSpec.linear A W i := by
  refine (blockProduct0 x0 x1 p q).trans ?_
  unfold GcnSpec.linear
  exact Finset.sum_congr rfl fun k _ => by rw [hrow k, hcol k]

/-- The printed index maps over the 25 grid points: the feature block moves with the output block down the rows,
    the weight block is always the whole matrix, and no block is offset along the columns. -/
theorem blockIndices0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 25 row blocks of the output is some grid point's. -/
theorem blockOnto0 : ∀ q0 : Fin 25, ∃ t : Fin cfg0.N, win0_2.index t = ![q0.val, 0] :=
  (by decide +kernel : ∀ q0 : Fin 25, ∃ t : Fin grid0.N, win0_2.index t = ![q0.val, 0])

/-- What grid point t writes back is block t of the whole-array product. -/
theorem flushed0 (c : Dev nD) (t : Fin cfg0.N) :
    (dat0 (F := Ideal) V c).flushed 2 t
      = ((cfg0.win 2).blk t).view.read (Elt Ideal) (GcnSpec.linear (V c main_arg0) (V c main_arg3)) := by
  show (cfg0.win 2).cut (grid0.coords t) ((dat0 (F := Ideal) V c).after 2 t) = _
  rw [after0_2]
  unfold out0_2
  rw [View.canon_unit_zero zeroOffsets]
  simp only [View.ld_unit_zero (S := S4000x128) zeroOffsets, View.ld_unit_zero (S := S128x128) zeroOffsets]
  obtain ⟨e0, e1, e2, e3, e4⟩ := blockIndices0 t
  funext j
  obtain ⟨p, q, rfl⟩ : ∃ (p : Fin 4000) (q : Fin 128), j = ix2 p q := ⟨j 0, j 1, eq_ix2 j⟩
  refine blockProduct0_eq_linear (V c main_arg0) (V c main_arg3) (iblk0 V c 0 t) (iblk0 V c 1 t)
    (((cfg0.win 2).blk t).view.emb (ix2 p q)) p q ?_ ?_
  · intro k
    show V c main_arg0 (((cfg0.win 0).blk t).view.emb (ix2 p k)) = V c main_arg0 _
    refine congrArg (V c main_arg0) (funext fun a => Fin.ext ?_)
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  · intro k
    show V c main_arg3 (((cfg0.win 1).blk t).view.emb (ix2 k q)) = V c main_arg3 _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the output array lies in grid point t's block exactly when each coordinate lies in the block's
    range on its axis. -/
theorem mem_block0 (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v32).slice (win0_2.rect t)).set ↔ _
  rw [View.set_slice_whole, Rect.mem_set_unit]
  exact Iff.rfl

/-- The 25 blocks of 4000 rows fill the 100000 rows: row r lies in block r / 4000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := blockOnto0 ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_block0]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 128 ≤ (i 1).val ∧ (i 1).val < win0_2.index t (1 : Fin 2) * 128 + 128
    omega

/-- Region 0: the features times the first weight matrix. -/
theorem final0 (c : Dev nD) :
    (dat0 (F := Ideal) V c).arrAt 2 cfg0.N = GcnSpec.linear (V c main_arg0) (V c main_arg3) :=
  (dat0 (F := Ideal) V c).arrAt_eq_of_cover 2 _ (fun t _ => flushed0 V c t) cover0

/-! ## Region 2: rows 4000·t … 4000·t + 3999 of the first layer's features, times the whole second weight matrix -/

/-- One block of the product, as in region 0; here the feature block is first recast to its own shape, which moves
    no entry. -/
theorem blockProduct2 (x0 : Vec Ideal S4000x128 .f32) (x1 : Vec Ideal S128x128 .f32) (p : Fin 4000) (q : Fin 128) :
    k2_pay1 x0 x1 (ix2 p q) = ∑ k : Fin 128, x0 (ix2 p k) * x1 (ix2 k q) := by
  unfold k2_pay1
  refine (Cert.DotPlain.matmul_zero_rows_cols (φ₁ := .bf16) (φ₂ := .bf16) dot_S4000x128_S128x128_S4000x128_1_0_0_1_n_n
    rfl rfl rfl rfl rfl rfl none
    (truncf .bf16 (shapeCast S4000x128 x0 shapeCasts_S4000x128_S4000x128) bitsLt_bf16_f32)
    (truncf .bf16 x1 bitsLt_bf16_f32) p q).trans ?_
  refine Finset.sum_congr rfl fun k _ => ?_
  exact congrArg (· * x1 (ix2 k q)) (congrFun (shapeCast_self x0 shapeCasts_S4000x128_S4000x128) (ix2 p k))

/-- The block's entry (p, q) is the whole-array product at array index i, as soon as row p of the feature block is
    row i₀ of the feature array and column q of the weight block is column i₁ of the weight array. -/
theorem blockProduct2_eq_linear (A : GcnSpec.SNodes.Idx → EReal) (W : GcnSpec.SWeight.Idx → EReal)
    (x0 : Vec Ideal S4000x128 .f32) (x1 : Vec Ideal S128x128 .f32) (i : GcnSpec.SNodes.Idx) (p : Fin 4000) (q : Fin 128)
    (hrow : ∀ k : Fin 128, x0 (ix2 p k) = A (ix2 (i 0) k)) (hcol : ∀ k : Fin 128, x1 (ix2 k q) = W (ix2 k (i 1))) :
    k2_pay1 x0 x1 (ix2 p q) = GcnSpec.linear A W i := by
  refine (blockProduct2 x0 x1 p q).trans ?_
  unfold GcnSpec.linear
  exact Finset.sum_congr rfl fun k _ => by rw [hrow k, hcol k]

/-- The printed index maps over the 25 grid points: the feature block moves with the output block down the rows,
    the weight block is always the whole matrix, and no block is offset along the columns. -/
theorem blockIndices2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the 25 row blocks of the output is some grid point's. -/
theorem blockOnto2 : ∀ q0 : Fin 25, ∃ t : Fin cfg2.N, win2_2.index t = ![q0.val, 0] :=
  (by decide +kernel : ∀ q0 : Fin 25, ∃ t : Fin grid2.N, win2_2.index t = ![q0.val, 0])

/-- What grid point t writes back is block t of the whole-array product. -/
theorem flushed2 (c : Dev nD) (t : Fin cfg2.N) :
    (dat2 (F := Ideal) V c).flushed 2 t
      = ((cfg2.win 2).blk t).view.read (Elt Ideal) (GcnSpec.linear (V c main_v47) (V c main_arg5)) := by
  show (cfg2.win 2).cut (grid2.coords t) ((dat2 (F := Ideal) V c).after 2 t) = _
  rw [after2_2]
  unfold out2_2
  rw [View.canon_unit_zero zeroOffsets]
  simp only [View.ld_unit_zero (S := S4000x128) zeroOffsets, View.ld_unit_zero (S := S128x128) zeroOffsets]
  obtain ⟨e0, e1, e2, e3, e4⟩ := blockIndices2 t
  funext j
  obtain ⟨p, q, rfl⟩ : ∃ (p : Fin 4000) (q : Fin 128), j = ix2 p q := ⟨j 0, j 1, eq_ix2 j⟩
  refine blockProduct2_eq_linear (V c main_v47) (V c main_arg5) (iblk2 V c 0 t) (iblk2 V c 1 t)
    (((cfg2.win 2).blk t).view.emb (ix2 p q)) p q ?_ ?_
  · intro k
    show V c main_v47 (((cfg2.win 0).blk t).view.emb (ix2 p k)) = V c main_v47 _
    refine congrArg (V c main_v47) (funext fun a => Fin.ext ?_)
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * k.val = k.val; omega
  · intro k
    show V c main_arg5 (((cfg2.win 1).blk t).view.emb (ix2 k q)) = V c main_arg5 _
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An index of the output array lies in grid point t's block exactly when each coordinate lies in the block's
    range on its axis. -/
theorem mem_block2 (t : Fin cfg2.N) (i : S100000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v48).slice (win2_2.rect t)).set ↔ _
  rw [View.set_slice_whole, Rect.mem_set_unit]
  exact Iff.rfl

/-- The 25 blocks of 4000 rows fill the 100000 rows: row r lies in block r / 4000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := blockOnto2 ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_block2]
  intro a
  match a with
  | ⟨0, _⟩ =>
    show win2_2.index t (0 : Fin 2) * 4000 ≤ (i 0).val ∧ (i 0).val < win2_2.index t (0 : Fin 2) * 4000 + 4000
    omega
  | ⟨1, _⟩ =>
    show win2_2.index t (1 : Fin 2) * 128 ≤ (i 1).val ∧ (i 1).val < win2_2.index t (1 : Fin 2) * 128 + 128
    omega

/-- Region 2: the first layer's features times the second weight matrix. -/
theorem final2 (c : Dev nD) :
    (dat2 (F := Ideal) V c).arrAt 2 cfg2.N = GcnSpec.linear (V c main_v47) (V c main_arg5) :=
  (dat2 (F := Ideal) V c).arrAt_eq_of_cover 2 _ (fun t _ => flushed2 V c t) cover2

end Cert.KernelIdeal.RegionValue

end
-- ==== Proof.RegionBiasRelu.lean ====
/- The two bias regions: after the region its output array is the input with the bias row added and the negative part cut off. -/
import proofs.«143984_j25400436589171_1_alg».proof.Proof.Gen.KernelIdeal.Frame
import proofs.«143984_j25400436589171_1_alg».proof.Proof.Spec
import Idealize.ShloMosaic.Lib.Pipeline.Value
import Idealize.ShloMosaic.Lib.ValueIdx

set_option maxRecDepth 16384

noncomputable section

open scoped BigOperators

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The block's origin is the zero offset on both axes. -/
theorem origin_zero : (![0, 0] : Fin 2 → Nat) = fun _ => 0 := funext fun a => by fin_cases a <;> rfl

/-- A row [1, b] repeated along a rows reads, at (r, q), the row at (0, q). -/
theorem broadcastTo_row_apply {α : Type} {a b : ℕ} (x : (⟨2, ![1, b]⟩ : Shape).Idx → α)
    (h : (⟨2, ![1, b]⟩ : Shape).Broadcasts ⟨2, ![a, b]⟩) (r : Fin a) (q : Fin b) :
    broadcastTo ⟨2, ![a, b]⟩ x h (ix2 r q) = x (ix2 (0 : Fin 1) q) :=
  broadcastTo_apply x h _ _ (fun ax => match ax with
    | ⟨0, _⟩ => by
      show 0 = if (1 : ℕ) = 1 then 0 else r.val
      rw [if_pos rfl]
    | ⟨1, _⟩ => by
      have := q.isLt
      show q.val = if b = 1 then 0 else q.val
      split <;> omega)

/-! ## Region 1 -/

/-- The body's stored value at (p, q): the block's element plus the bias row's q-th entry, cut at zero. -/
theorem pay1_apply (x0 : Vec Ideal S4000x128 .f32) (x1 : Vec Ideal S1x128 .f32) (p : Fin 4000) (q : Fin 128) :
    k1_pay1 x0 x1 (ix2 p q) = max (x0 (ix2 p q) + x1 (ix2 (0 : Fin 1) q)) (Ideal.ofBits .f32 0x00000000#32) := by
  unfold k1_pay1
  rw [shapeCast_self, shapeCast_self]
  exact congrArg (fun z => max (x0 (ix2 p q) + z) (Ideal.ofBits .f32 0x00000000#32))
    (broadcastTo_row_apply x1 broadcasts_S1x128_S4000x128 p q)

/-- The printed index maps over the grid: point t's input block and output block sit at the same block row t, in
    block column 0; the bias row's only block is (0, 0); the block row is at most 24. -/
theorem idx_facts1 : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Every block row of the output is some point's. -/
theorem idx_onto1 : ∀ q0 : Fin 25, ∃ t : Fin cfg1.N, win1_2.index t = ![q0.val, 0] :=
  (by decide +kernel : ∀ q0 : Fin 25, ∃ t : Fin grid1.N, win1_2.index t = ![q0.val, 0])

-- the TensorCore's buffer contents when the region is entered
variable (V : (c : Dev nD) → (b : Ref sig .tc) → Buf (Elt Ideal) ((c : Thread nD τ).loc b)) in
/-- What point t writes back is block t of the whole-array function: the input array plus the bias row, cut at zero. -/
theorem flushed1_eq (c : Dev nD) (t : Fin cfg1.N) :
    (dat1 (F := Ideal) V c).flushed 2 t
      = ((cfg1.win 2).blk t).view.read (Elt Ideal) (GcnSpec.biasRelu (V c main_v45) (V c main_v46)) := by
  show (cfg1.win 2).cut (grid1.coords t) ((dat1 V c).after 2 t) = _
  rw [after1_2]
  unfold out1_2
  rw [View.canon_unit_zero origin_zero]
  simp only [View.ld_unit_zero (S := S4000x128) origin_zero, View.ld_unit_zero (S := S1x128) origin_zero]
  obtain ⟨e0, e1, e2, e3, e4, e5⟩ := idx_facts1 t
  funext j
  obtain ⟨p, q, rfl⟩ : ∃ (p : Fin 4000) (q : Fin 128), j = ix2 p q := ⟨j 0, j 1, eq_ix2 j⟩
  refine (pay1_apply (iblk1 V c 0 t) (iblk1 V c 1 t) p q).trans ?_
  have hp : p.val < 4000 := p.isLt
  have hq : q.val < 128 := q.isLt
  have hr : win1_2.index t (0 : Fin 2) * 4000 + p.val < 100000 := by omega
  -- the three blocks' positions in their arrays
  have h0 : ((cfg1.win 0).blk t).view.emb (ix2 p q)
      = (ix2 (⟨win1_2.index t (0 : Fin 2) * 4000 + p.val, hr⟩ : Fin 100000) q : S100000x128.Idx) := by
    funext a; apply Fin.ext
    match a with
    | ⟨0, _⟩ => show win1_0.index t (0 : Fin 2) * 4000 + 1 * p.val = win1_2.index t (0 : Fin 2) * 4000 + p.val; omega
    | ⟨1, _⟩ => show win1_0.index t (1 : Fin 2) * 128 + 1 * q.val = q.val; omega
  have h1 : ((cfg1.win 1).blk t).view.emb (ix2 (0 : Fin 1) q) = (ix2 (0 : Fin 1) q : S1x128.Idx) := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have h2 : ((cfg1.win 2).blk t).view.emb (ix2 p q)
      = (ix2 (⟨win1_2.index t (0 : Fin 2) * 4000 + p.val, hr⟩ : Fin 100000) q : S100000x128.Idx) := by
    funext a; apply Fin.ext
    match a with
    | ⟨0, _⟩ => show win1_2.index t (0 : Fin 2) * 4000 + 1 * p.val = win1_2.index t (0 : Fin 2) * 4000 + p.val; omega
    | ⟨1, _⟩ => show win1_2.index t (1 : Fin 2) * 128 + 1 * q.val = q.val; omega
  have a0 : iblk1 V c 0 t (ix2 p q)
      = V c main_v45 (ix2 (⟨win1_2.index t (0 : Fin 2) * 4000 + p.val, hr⟩ : Fin 100000) q) := congrArg (V c main_v45) h0
  have a1 : iblk1 V c 1 t (ix2 (0 : Fin 1) q) = V c main_v46 (ix2 (0 : Fin 1) q) := congrArg (V c main_v46) h1
  have a2 : ((cfg1.win 2).blk t).view.read (Elt Ideal) (GcnSpec.biasRelu (V c main_v45) (V c main_v46)) (ix2 p q)
      = GcnSpec.biasRelu (V c main_v45) (V c main_v46) (ix2 (⟨win1_2.index t (0 : Fin 2) * 4000 + p.val, hr⟩ : Fin 100000) q) :=
    congrArg (GcnSpec.biasRelu (V c main_v45) (V c main_v46)) h2
  rw [a0, a1, a2, GcnSpec.biasRelu_apply]

/-- An index of the output array is in point t's block iff each coordinate is in the block's range on its axis. -/
theorem mem_blk1 (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v47).slice (win1_2.rect t)).set ↔ _
  rw [View.set_slice_whole, Rect.mem_set_unit]
  exact Iff.rfl

/-- The blocks tile the output array: row r lies in the block of point r / 4000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 4000, by omega⟩
  have q0 : win1_2.index t (0 : Fin 2) = (i 0).val / 4000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-! ## Region 3 -/

/-- The body's stored value at (p, q): the block's element plus the bias row's q-th entry, cut at zero. -/
theorem pay3_apply (x0 : Vec Ideal S4000x128 .f32) (x1 : Vec Ideal S1x128 .f32) (p : Fin 4000) (q : Fin 128) :
    k3_pay1 x0 x1 (ix2 p q) = max (x0 (ix2 p q) + x1 (ix2 (0 : Fin 1) q)) (Ideal.ofBits .f32 0x00000000#32) := by
  unfold k3_pay1
  rw [shapeCast_self, shapeCast_self]
  exact congrArg (fun z => max (x0 (ix2 p q) + z) (Ideal.ofBits .f32 0x00000000#32))
    (broadcastTo_row_apply x1 broadcasts_S1x128_S4000x128 p q)

/-- The printed index maps over the grid: point t's input block and output block sit at the same block row t, in
    block column 0; the bias row's only block is (0, 0); the block row is at most 24. -/
theorem idx_facts3 : ∀ t : Fin cfg3.N,
    win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 24 :=
  (by decide +kernel : ∀ t : Fin grid3.N, _)

/-- Every block row of the output is some point's. -/
theorem idx_onto3 : ∀ q0 : Fin 25, ∃ t : Fin cfg3.N, win3_2.index t = ![q0.val, 0] :=
  (by decide +kernel : ∀ q0 : Fin 25, ∃ t : Fin grid3.N, win3_2.index t = ![q0.val, 0])

-- the TensorCore's buffer contents when the region is entered
variable (V : (c : Dev nD) → (b : Ref sig .tc) → Buf (Elt Ideal) ((c : Thread nD τ).loc b)) in
/-- What point t writes back is block t of the whole-array function: the input array plus the bias row, cut at zero. -/
theorem flushed3_eq (c : Dev nD) (t : Fin cfg3.N) :
    (dat3 (F := Ideal) V c).flushed 2 t
      = ((cfg3.win 2).blk t).view.read (Elt Ideal) (GcnSpec.biasRelu (V c main_v61) (V c main_v62)) := by
  show (cfg3.win 2).cut (grid3.coords t) ((dat3 V c).after 2 t) = _
  rw [after3_2]
  unfold out3_2
  rw [View.canon_unit_zero origin_zero]
  simp only [View.ld_unit_zero (S := S4000x128) origin_zero, View.ld_unit_zero (S := S1x128) origin_zero]
  obtain ⟨e0, e1, e2, e3, e4, e5⟩ := idx_facts3 t
  funext j
  obtain ⟨p, q, rfl⟩ : ∃ (p : Fin 4000) (q : Fin 128), j = ix2 p q := ⟨j 0, j 1, eq_ix2 j⟩
  refine (pay3_apply (iblk3 V c 0 t) (iblk3 V c 1 t) p q).trans ?_
  have hp : p.val < 4000 := p.isLt
  have hq : q.val < 128 := q.isLt
  have hr : win3_2.index t (0 : Fin 2) * 4000 + p.val < 100000 := by omega
  -- the three blocks' positions in their arrays
  have h0 : ((cfg3.win 0).blk t).view.emb (ix2 p q)
      = (ix2 (⟨win3_2.index t (0 : Fin 2) * 4000 + p.val, hr⟩ : Fin 100000) q : S100000x128.Idx) := by
    funext a; apply Fin.ext
    match a with
    | ⟨0, _⟩ => show win3_0.index t (0 : Fin 2) * 4000 + 1 * p.val = win3_2.index t (0 : Fin 2) * 4000 + p.val; omega
    | ⟨1, _⟩ => show win3_0.index t (1 : Fin 2) * 128 + 1 * q.val = q.val; omega
  have h1 : ((cfg3.win 1).blk t).view.emb (ix2 (0 : Fin 1) q) = (ix2 (0 : Fin 1) q : S1x128.Idx) := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  have h2 : ((cfg3.win 2).blk t).view.emb (ix2 p q)
      = (ix2 (⟨win3_2.index t (0 : Fin 2) * 4000 + p.val, hr⟩ : Fin 100000) q : S100000x128.Idx) := by
    funext a; apply Fin.ext
    match a with
    | ⟨0, _⟩ => show win3_2.index t (0 : Fin 2) * 4000 + 1 * p.val = win3_2.index t (0 : Fin 2) * 4000 + p.val; omega
    | ⟨1, _⟩ => show win3_2.index t (1 : Fin 2) * 128 + 1 * q.val = q.val; omega
  have a0 : iblk3 V c 0 t (ix2 p q)
      = V c main_v61 (ix2 (⟨win3_2.index t (0 : Fin 2) * 4000 + p.val, hr⟩ : Fin 100000) q) := congrArg (V c main_v61) h0
  have a1 : iblk3 V c 1 t (ix2 (0 : Fin 1) q) = V c main_v62 (ix2 (0 : Fin 1) q) := congrArg (V c main_v62) h1
  have a2 : ((cfg3.win 2).blk t).view.read (Elt Ideal) (GcnSpec.biasRelu (V c main_v61) (V c main_v62)) (ix2 p q)
      = GcnSpec.biasRelu (V c main_v61) (V c main_v62) (ix2 (⟨win3_2.index t (0 : Fin 2) * 4000 + p.val, hr⟩ : Fin 100000) q) :=
    congrArg (GcnSpec.biasRelu (V c main_v61) (V c main_v62)) h2
  rw [a0, a1, a2, GcnSpec.biasRelu_apply]

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v63).slice (win3_2.rect t)).set ↔ _
  rw [View.set_slice_whole, Rect.mem_set_unit]
  exact Iff.rfl

/-- The blocks tile the output array: row r lies in the block of point r / 4000. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto3 ⟨(i 0).val / 4000, by omega⟩
  have q0 : win3_2.index t (0 : Fin 2) = (i 0).val / 4000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 128 ≤ (i 1).val ∧ (i 1).val < win3_2.index t (1 : Fin 2) * 128 + 128; omega

-- the TensorCore's buffer contents when the region is entered: every statement below holds at any such contents
variable (V : (c : Dev nD) → (b : Ref sig .tc) → Buf (Elt Ideal) ((c : Thread nD τ).loc b))

/-- Region 1: the first layer's aggregate plus its bias, cut at zero. -/
theorem final1 (c : Dev nD) :
    (dat1 (F := Ideal) V c).arrAt 2 cfg1.N = GcnSpec.biasRelu (V c main_v45) (V c main_v46) := by
  exact (dat1 (F := Ideal) V c).arrAt_eq_of_cover 2 _ (fun t _ => flushed1_eq V c t) cover1

/-- Region 3: the second layer's aggregate plus its bias, cut at zero. -/
theorem final3 (c : Dev nD) :
    (dat3 (F := Ideal) V c).arrAt 2 cfg3.N = GcnSpec.biasRelu (V c main_v61) (V c main_v62) := by
  exact (dat3 (F := Ideal) V c).arrAt_eq_of_cover 2 _ (fun t _ => flushed3_eq V c t) cover3

end Cert.KernelIdeal.RegionValue

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.RegionEdgeDot.lean ====
/- The decoder region: after the region its output column holds, per labelled edge, the inner product of the two gathered rows. -/
import proofs.«143984_j25400436589171_1_alg».proof.Proof.Gen.KernelIdeal.Frame
import proofs.«143984_j25400436589171_1_alg».proof.Proof.Spec
import proofs.«143984_j25400436589171_1_alg».proof.Proof.LibKeepdims
set_option maxRecDepth 16384

noncomputable section

open scoped BigOperators

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered: every statement below holds at any such contents
variable (V : (c : Dev nD) → (b : Ref sig .tc) → Buf (Elt Ideal) ((c : Thread nD τ).loc b))

/-- The all-zero offset of a whole-buffer rectangle, as the constant function. -/
theorem zero_offset : (![0, 0] : Fin 2 → Nat) = fun _ => 0 := funext fun a => by fin_cases a <;> rfl

/-- The body's value at row p of the column: the two blocks multiplied entry by entry, the 128 products of row p
    added up. Viewing a block in its own shape changes nothing, and the sum over the lanes, viewed as a column, is
    read at the row. -/
theorem rowDot_at (x0 x1 : Vec Ideal S4000x128 .f32) (p : Fin 4000) (u : Fin 1) :
    k4_pay1 x0 x1 (ix2 p u) = ∑ k : Fin 128, x0 (ix2 p k) * x1 (ix2 p k) := by
  unfold k4_pay1
  refine (Keepdims.shapeCast_a_a1_apply _ _ p u).trans ?_
  refine (Keepdims.sum_last2_apply _ _ _ _ _ p).trans ?_
  refine Finset.sum_congr rfl fun k _ => ?_
  rw [shapeCast_self, shapeCast_self]
  rfl

/-- If row p of two blocks is, lane for lane, row (i 0) of two whole arrays, then the inner product of the blocks'
    rows is the arrays' row-wise inner product at i. -/
theorem rowDot_of_rows (a b : GcnSpec.SNodes.Idx → EReal) (x0 x1 : Vec Ideal S4000x128 .f32) (p : Fin 4000)
    (i : GcnSpec.SScoreCol.Idx)
    (h0 : ∀ k : Fin 128, x0 (ix2 p k) = a (ix2 (i 0) k))
    (h1 : ∀ k : Fin 128, x1 (ix2 p k) = b (ix2 (i 0) k)) :
    ∑ k : Fin 128, x0 (ix2 p k) * x1 (ix2 p k) = GcnSpec.edgeDot a b i :=
  Finset.sum_congr rfl fun k _ => by rw [h0 k, h1 k]

/-- Where the three blocks of a grid point sit: both inputs move down the rows with the output column and stay at
    lane block 0; the output stays at column block 0 and its row block is one of the 25. -/
theorem block_positions : ∀ t : Fin cfg4.N, win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (1 : Fin 2) = 0
    ∧ win4_2.index t (0 : Fin 2) ≤ 24 :=
  (by decide +kernel : ∀ t : Fin grid4.N, _)

/-- Every one of the 25 row blocks of the output column is some grid point's. -/
theorem row_block_reached : ∀ q0 : Fin 25, ∃ t : Fin cfg4.N, win4_2.index t = ![q0.val, 0] :=
  (by decide +kernel : ∀ q0 : Fin 25, ∃ t : Fin grid4.N, win4_2.index t = ![q0.val, 0])

/-- What a grid point writes back is its block of the row-wise inner products of the two whole arrays: row p of the
    point's input blocks is row (4000 · block + p) of the arrays, lane for lane, and that is the row the output block's
    entry p stands for. -/
theorem flushed_rowDot (c : Dev nD) (t : Fin cfg4.N) :
    (dat4 (F := Ideal) V c).flushed 2 t
      = ((cfg4.win 2).blk t).view.read (Elt Ideal) (GcnSpec.edgeDot (V c main_v74) (V c main_v81)) := by
  show (cfg4.win 2).cut (grid4.coords t) ((dat4 V c).after 2 t) = _
  rw [after4_2]
  unfold out4_2
  rw [View.canon_unit_zero zero_offset]
  simp only [View.ld_unit_zero (S := S4000x128) zero_offset]
  obtain ⟨e0, e1, e2, e3, e4, e5⟩ := block_positions t
  funext j
  obtain ⟨p, u, rfl⟩ : ∃ (p : Fin 4000) (u : Fin 1), j = ix2 p u := ⟨j 0, j 1, eq_ix2 j⟩
  refine (rowDot_at (iblk4 V c 0 t) (iblk4 V c 1 t) p u).trans ?_
  refine rowDot_of_rows (V c main_v74) (V c main_v81) (iblk4 V c 0 t) (iblk4 V c 1 t) p
    (((cfg4.win 2).blk t).view.emb (ix2 p u)) (fun k => ?_) (fun k => ?_)
  · show V c main_v74 (((cfg4.win 0).blk t).view.emb (ix2 p k))
        = V c main_v74 (ix2 ((((cfg4.win 2).blk t).view.emb (ix2 p u)) 0) k)
    refine congrArg (V c main_v74) ?_
    funext a; apply Fin.ext
    match a with
    | ⟨0, _⟩ => show win4_0.index t (0 : Fin 2) * 4000 + 1 * p.val = win4_2.index t (0 : Fin 2) * 4000 + 1 * p.val; omega
    | ⟨1, _⟩ => show win4_0.index t (1 : Fin 2) * 128 + 1 * k.val = k.val; omega
  · show V c main_v81 (((cfg4.win 1).blk t).view.emb (ix2 p k))
        = V c main_v81 (ix2 ((((cfg4.win 2).blk t).view.emb (ix2 p u)) 0) k)
    refine congrArg (V c main_v81) ?_
    funext a; apply Fin.ext
    match a with
    | ⟨0, _⟩ => show win4_1.index t (0 : Fin 2) * 4000 + 1 * p.val = win4_2.index t (0 : Fin 2) * 4000 + 1 * p.val; omega
    | ⟨1, _⟩ => show win4_1.index t (1 : Fin 2) * 128 + 1 * k.val = k.val; omega

/-- An index of the output column is in a grid point's block exactly when each coordinate is in the block's range. -/
theorem mem_block (t : Fin cfg4.N) (i : S100000x1.Idx) :
    i ∈ ((cfg4.win 2).blk t).view.set ↔ ∀ a : Fin 2, win4_2.index t a * S4000x1.size a ≤ (i a).val ∧ (i a).val < win4_2.index t a * S4000x1.size a + S4000x1.size a := by
  show i ∈ ((View.whole main_v82).slice (win4_2.rect t)).set ↔ _
  rw [View.set_slice_whole, Rect.mem_set_unit]
  exact Iff.rfl

/-- The 25 blocks of 4000 rows fill the column of 100000: row r lies in block r / 4000. -/
theorem blocks_cover (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  obtain ⟨t, ht⟩ := row_block_reached ⟨(i 0).val / 4000, by omega⟩
  have q0 : win4_2.index t (0 : Fin 2) = (i 0).val / 4000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 1 ≤ (i 1).val ∧ (i 1).val < win4_2.index t (1 : Fin 2) * 1 + 1; omega

/-- Region 4: row-wise inner products, kept as a column. -/
theorem final4 (c : Dev nD) :
    (dat4 (F := Ideal) V c).arrAt 2 cfg4.N = GcnSpec.edgeDot (V c main_v74) (V c main_v81) :=
  (dat4 (F := Ideal) V c).arrAt_eq_of_cover 2 _ (fun t _ => flushed_rowDot V c t) blocks_cover

end Cert.KernelIdeal.RegionValue

end
-- ==== Proof.RefBridge.lean ====
/- The five places where the reference does on the host what the kernel does in a grid region, each as the
   specification's function of the stage before it: the two dense products, the two bias-and-cut steps (where the
   reference broadcasts the bias twice and the kernel's program reshapes it to a row), and the decoder's row-wise
   inner product (where the reference sums a product over its last axis and the kernel's program flattens a
   column). -/
import proofs.«143984_j25400436589171_1_alg».proof.Proof.RefRead
import proofs.«143984_j25400436589171_1_alg».proof.Proof.Spec
import proofs.«143984_j25400436589171_1_alg».proof.Proof.LibDotPlain
import proofs.«143984_j25400436589171_1_alg».proof.Proof.LibKeepdims
import Idealize.ShloMosaic.Lib.Pipeline.Value
import Idealize.ShloMosaic.PureOps.Ideal.Laws

noncomputable section

open scoped BigOperators

namespace Cert.RefBridge

open Idealize.ShloMosaic Idealize.ShloMosaic.ValueIdx
open Cert.ReferenceIdeal Cert.ReferenceIdeal.ReadP

variable (x0 : (⟨S100000x128, .f32⟩ : BufTy).Contents (Elt Ideal)) (x1 : (⟨S2x1600000, .i32⟩ : BufTy).Contents (Elt Ideal))
  (x2 : (⟨S2x100000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- The first layer's dense product. -/
theorem linear1 : val_main_v32 (F := Ideal) x0 x3 = GcnSpec.linear x0 x3 := by
  funext i
  obtain ⟨p, q, rfl⟩ : ∃ (p : Fin 100000) (q : Fin 128), i = ix2 p q := ⟨i 0, i 1, eq_ix2 i⟩
  rw [val_main_v32_apply]
  refine (Finset.sum_congr rfl fun k _ => ?_).trans (GcnSpec.linear_apply x0 x3 p q).symm
  -- the left operand at (p, k), the right operand at (k, q)
  have el : lidx_main_v32 (ix2 p q) k = ix2 p k :=
    funext fun a => Fin.ext (by match a with | ⟨0, _⟩ => rfl | ⟨1, _⟩ => rfl)
  have er : ridx_main_v32 (ix2 p q) k = ix2 k q :=
    funext fun a => Fin.ext (by match a with | ⟨0, _⟩ => rfl | ⟨1, _⟩ => rfl)
  rw [el, er]

/-- The second layer's dense product, of the first layer's features. -/
theorem linear2 :
    val_main_v78 (F := Ideal) x0 x1 x3 x4 x5 = GcnSpec.linear (val_main_v49 (F := Ideal) x0 x1 x3 x4) x5 := by
  funext i
  obtain ⟨p, q, rfl⟩ : ∃ (p : Fin 100000) (q : Fin 128), i = ix2 p q := ⟨i 0, i 1, eq_ix2 i⟩
  rw [val_main_v78_apply]
  generalize val_main_v49 (F := Ideal) x0 x1 x3 x4 = y
  refine (Finset.sum_congr rfl fun k _ => ?_).trans (GcnSpec.linear_apply y x5 p q).symm
  have el : lidx_main_v78 (ix2 p q) k = ix2 p k :=
    funext fun a => Fin.ext (by match a with | ⟨0, _⟩ => rfl | ⟨1, _⟩ => rfl)
  have er : ridx_main_v78 (ix2 p q) k = ix2 k q :=
    funext fun a => Fin.ext (by match a with | ⟨0, _⟩ => rfl | ⟨1, _⟩ => rfl)
  rw [el, er]

/-- A vector of 128 entries viewed as a single row reads, at (0, q), the vector at q. -/
theorem row_of_vector {α : Type} (b : S128.Idx → α) (h : S128.ShapeCasts S1x128) (q : Fin 128) :
    shapeCast S1x128 b h (ix2 (0 : Fin 1) q) = b (ix1 q) :=
  shapeCast_apply b h (ix2 (0 : Fin 1) q) (ix1 q) (by
    rw [Shape.rowMajor_val_one, Shape.rowMajor_val_two]
    show q.val = 0 * 128 + q.val
    omega)

/-- The first layer's bias and cut: the bias read as a row. -/
theorem biasRelu1 (h : S128.ShapeCasts S1x128) :
    val_main_v49 (F := Ideal) x0 x1 x3 x4 = GcnSpec.biasRelu (val_main_v45 (F := Ideal) x0 x1 x3) (shapeCast S1x128 x4 h) := by
  funext i
  obtain ⟨p, q, rfl⟩ : ∃ (p : Fin 100000) (q : Fin 128), i = ix2 p q := ⟨i 0, i 1, eq_ix2 i⟩
  rw [val_main_v49_apply, val_main_v48_apply, val_main_v47_apply, val_main_v46_apply, val_main_call1_v0_apply,
    val_main_call1_cst_apply]
  generalize val_main_v45 (F := Ideal) x0 x1 x3 = y
  -- broadcasting the bias to a row and the row down the rows reads the bias at the column
  have hi : idx_main_v46 (idx_main_v47 (ix2 p q)) = ix1 q :=
    funext fun a => Fin.ext (by match a with | ⟨0, _⟩ => rfl)
  rw [hi, GcnSpec.biasRelu_apply, row_of_vector x4 h q]
  rfl

/-- The second layer's bias and cut. -/
theorem biasRelu2 (h : S128.ShapeCasts S1x128) :
    val_main_v95 (F := Ideal) x0 x1 x3 x4 x5 x6
      = GcnSpec.biasRelu (val_main_v91 (F := Ideal) x0 x1 x3 x4 x5) (shapeCast S1x128 x6 h) := by
  funext i
  obtain ⟨p, q, rfl⟩ : ∃ (p : Fin 100000) (q : Fin 128), i = ix2 p q := ⟨i 0, i 1, eq_ix2 i⟩
  rw [val_main_v95_apply, val_main_v94_apply, val_main_v93_apply, val_main_v92_apply, val_main_call3_v0_apply,
    val_main_call3_cst_apply]
  generalize val_main_v91 (F := Ideal) x0 x1 x3 x4 x5 = y
  have hi : idx_main_v92 (idx_main_v93 (ix2 p q)) = ix1 q :=
    funext fun a => Fin.ext (by match a with | ⟨0, _⟩ => rfl)
  rw [hi, GcnSpec.biasRelu_apply, row_of_vector x6 h q]
  rfl

/-- A column of 100000 entries flattened reads, at r, the column at (r, 0). -/
theorem vector_of_column {α : Type} (s : S100000x1.Idx → α) (h : S100000x1.ShapeCasts S100000) (r : Fin 100000) :
    shapeCast S100000 s h (ix1 r) = s (ix2 r (0 : Fin 1)) :=
  shapeCast_apply s h (ix1 r) (ix2 r (0 : Fin 1)) (by
    rw [Shape.rowMajor_val_one, Shape.rowMajor_val_two]
    show r.val * 1 + 0 = r.val
    omega)

/-- The float zero plus the sum over k of the products of row r of two arrays is the flattened column of row-wise inner
    products at r. -/
theorem rowProducts_flat (a b : (⟨S100000x128, .f32⟩ : BufTy).Contents (Elt Ideal)) (h : S100000x1.ShapeCasts S100000)
    (r : Fin 100000) :
    FloatOps.ofBits (F := Ideal) .f32 0x00000000#32
        + ∑ k : Fin 128, FloatOps.mulf (F := Ideal) (φ := .f32) (a (idx_main_v115 (ix1 r) k)) (b (idx_main_v115 (ix1 r) k))
      = shapeCast S100000 (GcnSpec.edgeDot a b) h (ix1 r) := by
  rw [vector_of_column (GcnSpec.edgeDot a b) h r, GcnSpec.edgeDot_apply]
  -- the sum starts from the float zero, which is the extended real 0
  have hz : FloatOps.ofBits (F := Ideal) .f32 0x00000000#32 = 0 := Ideal.ofBits_zero_f32
  rw [hz, zero_add]
  refine Finset.sum_congr rfl fun k _ => ?_
  have hi : idx_main_v115 (ix1 r) k = ix2 r k :=
    funext fun a => Fin.ext (by match a with | ⟨0, _⟩ => rfl | ⟨1, _⟩ => rfl)
  rw [hi]
  rfl

/-- The decoder: the sum over the last axis of the product of the two gathered arrays is the column of row-wise inner
    products, flattened. -/
theorem edgeDot1 (h : S100000x1.ShapeCasts S100000) :
    val_main_v115 (F := Ideal) x0 x1 x2 x3 x4 x5 x6
      = shapeCast S100000 (GcnSpec.edgeDot (val_main_v106 (F := Ideal) x0 x1 x2 x3 x4 x5 x6)
          (val_main_v113 (F := Ideal) x0 x1 x2 x3 x4 x5 x6)) h := by
  funext i
  obtain ⟨r, rfl⟩ : ∃ r : Fin 100000, i = ix1 r := ⟨i 0, eq_ix1 i⟩
  rw [val_main_v115_apply, val_main_cst_26_apply]
  -- each summand is the product of the two gathered arrays' entries
  refine Eq.trans (congrArg (_ + ·) (Finset.sum_congr rfl fun k _ =>
    val_main_v114_apply x0 x1 x2 x3 x4 x5 x6 (idx_main_v115 (ix1 r) k))) ?_
  generalize val_main_v106 (F := Ideal) x0 x1 x2 x3 x4 x5 x6 = ea
  generalize val_main_v113 (F := Ideal) x0 x1 x2 x3 x4 x5 x6 = eb
  exact rowProducts_flat ea eb h r

end Cert.RefBridge

end
-- ==== Proof.KernelChain.lean ====
/- The kernel's run, followed from the launch to the return: what each buffer that is read later holds at each
   boundary between a host stretch and a grid region, as a function of the launch arguments.

   The functions are the reference's own stages. At the boundary before the first region the edge lists and the
   normalisation are the reference's; each dense-product region leaves the specification's product of its inputs,
   which is the reference's product; each host stretch after a product does the reference's gather, scaling and row
   sums; each bias region leaves the reference's sum with the bias, cut at zero; the two gathers before the decoder
   are the reference's; the decoder region leaves the row-wise inner products, whose flattening is the reference's
   sum over the last axis of the elementwise product. Buffers that a stretch or a region does not write are carried
   across it unchanged. The last line is the result buffer at the last boundary. -/
import proofs.«143984_j25400436589171_1_alg».proof.Proof.Gen.KernelIdeal.Frame
import proofs.«143984_j25400436589171_1_alg».proof.Proof.KernelHost
import proofs.«143984_j25400436589171_1_alg».proof.Proof.RegionLinear
import proofs.«143984_j25400436589171_1_alg».proof.Proof.RegionBiasRelu
import proofs.«143984_j25400436589171_1_alg».proof.Proof.RegionEdgeDot
import proofs.«143984_j25400436589171_1_alg».proof.Proof.RefBridge

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.ReadP

variable (m : (ℓ : Loc nD τ sig) → Buf (Elt Ideal) ℓ) (ρ : Dev nD → PrngReg) (c : Dev nD)

/-! ## Entering the first region -/

theorem at3_v5 : W3 m ρ c (Proc.devRef .tc main_v5) = val_main_v5 (F := Ideal) (m ((c : Thread nD τ).loc main_arg1)) :=
  HostStretch.sources (F := Ideal) (W0 m ρ c) (m ((c : Thread nD τ).loc main_arg1)) rfl

theorem at3_v6 : W3 m ρ c (Proc.devRef .tc main_v6) = val_main_v6 (F := Ideal) (m ((c : Thread nD τ).loc main_arg1)) :=
  HostStretch.destinations (F := Ideal) (W0 m ρ c) (m ((c : Thread nD τ).loc main_arg1)) rfl

theorem at3_v31 : W3 m ρ c (Proc.devRef .tc main_v31) = val_main_v31 (F := Ideal) (m ((c : Thread nD τ).loc main_arg1)) :=
  HostStretch.normalisation (F := Ideal) (W0 m ρ c) (m ((c : Thread nD τ).loc main_arg1)) rfl

theorem at3_arg0 : W3 m ρ c (Proc.devRef .tc main_arg0) = (m ((c : Thread nD τ).loc main_arg0)) :=
  HostStretch.before_first_region_keeps_arg0 (F := Ideal) (W0 m ρ c)

theorem at3_arg2 : W3 m ρ c (Proc.devRef .tc main_arg2) = (m ((c : Thread nD τ).loc main_arg2)) :=
  HostStretch.before_first_region_keeps_arg2 (F := Ideal) (W0 m ρ c)

theorem at3_arg3 : W3 m ρ c (Proc.devRef .tc main_arg3) = (m ((c : Thread nD τ).loc main_arg3)) :=
  HostStretch.before_first_region_keeps_arg3 (F := Ideal) (W0 m ρ c)

theorem at3_arg4 : W3 m ρ c (Proc.devRef .tc main_arg4) = (m ((c : Thread nD τ).loc main_arg4)) :=
  HostStretch.before_first_region_keeps_arg4 (F := Ideal) (W0 m ρ c)

theorem at3_arg5 : W3 m ρ c (Proc.devRef .tc main_arg5) = (m ((c : Thread nD τ).loc main_arg5)) :=
  HostStretch.before_first_region_keeps_arg5 (F := Ideal) (W0 m ρ c)

theorem at3_arg6 : W3 m ρ c (Proc.devRef .tc main_arg6) = (m ((c : Thread nD τ).loc main_arg6)) :=
  HostStretch.before_first_region_keeps_arg6 (F := Ideal) (W0 m ρ c)

/-! ## After the first dense product -/

theorem at4_v32 : W4 m ρ c (Proc.devRef .tc main_v32) = val_main_v32 (F := Ideal) (m ((c : Thread nD τ).loc main_arg0)) (m ((c : Thread nD τ).loc main_arg3)) :=
  (W4_arr m ρ c 2).trans ((RegionValue.final0 (V3 m ρ) c).trans
    ((congrArg₂ GcnSpec.linear (at3_arg0 m ρ c) (at3_arg3 m ρ c)).trans (RefBridge.linear1 _ _).symm))

theorem at4_v5 : W4 m ρ c (Proc.devRef .tc main_v5) = val_main_v5 (F := Ideal) (m ((c : Thread nD τ).loc main_arg1)) :=
  (W4_of_ne m ρ c main_v5 (by decide)).trans (at3_v5 m ρ c)

theorem at4_v6 : W4 m ρ c (Proc.devRef .tc main_v6) = val_main_v6 (F := Ideal) (m ((c : Thread nD τ).loc main_arg1)) :=
  (W4_of_ne m ρ c main_v6 (by decide)).trans (at3_v6 m ρ c)

theorem at4_v31 : W4 m ρ c (Proc.devRef .tc main_v31) = val_main_v31 (F := Ideal) (m ((c : Thread nD τ).loc main_arg1)) :=
  (W4_of_ne m ρ c main_v31 (by decide)).trans (at3_v31 m ρ c)

theorem at4_arg2 : W4 m ρ c (Proc.devRef .tc main_arg2) = (m ((c : Thread nD τ).loc main_arg2)) :=
  (W4_of_ne m ρ c main_arg2 (by decide)).trans (at3_arg2 m ρ c)

theorem at4_arg4 : W4 m ρ c (Proc.devRef .tc main_arg4) = (m ((c : Thread nD τ).loc main_arg4)) :=
  (W4_of_ne m ρ c main_arg4 (by decide)).trans (at3_arg4 m ρ c)

theorem at4_arg5 : W4 m ρ c (Proc.devRef .tc main_arg5) = (m ((c : Thread nD τ).loc main_arg5)) :=
  (W4_of_ne m ρ c main_arg5 (by decide)).trans (at3_arg5 m ρ c)

theorem at4_arg6 : W4 m ρ c (Proc.devRef .tc main_arg6) = (m ((c : Thread nD τ).loc main_arg6)) :=
  (W4_of_ne m ρ c main_arg6 (by decide)).trans (at3_arg6 m ρ c)

/-! ## The first layer's aggregate and its bias row -/

theorem at5_v45 : W5 m ρ c (Proc.devRef .tc main_v45) = val_main_v45 (F := Ideal) (m ((c : Thread nD τ).loc main_arg0)) (m ((c : Thread nD τ).loc main_arg1)) (m ((c : Thread nD τ).loc main_arg3)) :=
  HostStretch.aggregate1 (F := Ideal) (W4 m ρ c) _ _ _ (at4_v32 m ρ c) (at4_v5 m ρ c) (at4_v6 m ρ c) (at4_v31 m ρ c)

theorem at5_v46 : W5 m ρ c (Proc.devRef .tc main_v46) = shapeCast S1x128 (m ((c : Thread nD τ).loc main_arg4)) shapeCasts_S128_S1x128 :=
  HostStretch.biasRow1 (F := Ideal) (W4 m ρ c) _ (at4_arg4 m ρ c)

theorem at5_v5 : W5 m ρ c (Proc.devRef .tc main_v5) = val_main_v5 (F := Ideal) (m ((c : Thread nD τ).loc main_arg1)) :=
  (HostStretch.aggregate1_keeps_v5 (F := Ideal) (W4 m ρ c)).trans (at4_v5 m ρ c)

theorem at5_v6 : W5 m ρ c (Proc.devRef .tc main_v6) = val_main_v6 (F := Ideal) (m ((c : Thread nD τ).loc main_arg1)) :=
  (HostStretch.aggregate1_keeps_v6 (F := Ideal) (W4 m ρ c)).trans (at4_v6 m ρ c)

theorem at5_v31 : W5 m ρ c (Proc.devRef .tc main_v31) = val_main_v31 (F := Ideal) (m ((c : Thread nD τ).loc main_arg1)) :=
  (HostStretch.aggregate1_keeps_v31 (F := Ideal) (W4 m ρ c)).trans (at4_v31 m ρ c)

theorem at5_arg2 : W5 m ρ c (Proc.devRef .tc main_arg2) = (m ((c : Thread nD τ).loc main_arg2)) :=
  (HostStretch.aggregate1_keeps_arg2 (F := Ideal) (W4 m ρ c)).trans (at4_arg2 m ρ c)

theorem at5_arg5 : W5 m ρ c (Proc.devRef .tc main_arg5) = (m ((c : Thread nD τ).loc main_arg5)) :=
  (HostStretch.aggregate1_keeps_arg5 (F := Ideal) (W4 m ρ c)).trans (at4_arg5 m ρ c)

theorem at5_arg6 : W5 m ρ c (Proc.devRef .tc main_arg6) = (m ((c : Thread nD τ).loc main_arg6)) :=
  (HostStretch.aggregate1_keeps_arg6 (F := Ideal) (W4 m ρ c)).trans (at4_arg6 m ρ c)

/-! ## After the first bias and cut -/

theorem at6_v47 : W6 m ρ c (Proc.devRef .tc main_v47) = val_main_v49 (F := Ideal) (m ((c : Thread nD τ).loc main_arg0)) (m ((c : Thread nD τ).loc main_arg1)) (m ((c : Thread nD τ).loc main_arg3)) (m ((c : Thread nD τ).loc main_arg4)) :=
  (W6_arr m ρ c 2).trans ((RegionValue.final1 (V5 m ρ) c).trans
    ((congrArg₂ GcnSpec.biasRelu (at5_v45 m ρ c) (at5_v46 m ρ c)).trans (RefBridge.biasRelu1 _ _ _ _ shapeCasts_S128_S1x128).symm))

theorem at6_v5 : W6 m ρ c (Proc.devRef .tc main_v5) = val_main_v5 (F := Ideal) (m ((c : Thread nD τ).loc main_arg1)) :=
  (W6_of_ne m ρ c main_v5 (by decide)).trans (at5_v5 m ρ c)

theorem at6_v6 : W6 m ρ c (Proc.devRef .tc main_v6) = val_main_v6 (F := Ideal) (m ((c : Thread nD τ).loc main_arg1)) :=
  (W6_of_ne m ρ c main_v6 (by decide)).trans (at5_v6 m ρ c)

theorem at6_v31 : W6 m ρ c (Proc.devRef .tc main_v31) = val_main_v31 (F := Ideal) (m ((c : Thread nD τ).loc main_arg1)) :=
  (W6_of_ne m ρ c main_v31 (by decide)).trans (at5_v31 m ρ c)

theorem at6_arg2 : W6 m ρ c (Proc.devRef .tc main_arg2) = (m ((c : Thread nD τ).loc main_arg2)) :=
  (W6_of_ne m ρ c main_arg2 (by decide)).trans (at5_arg2 m ρ c)

theorem at6_arg5 : W6 m ρ c (Proc.devRef .tc main_arg5) = (m ((c : Thread nD τ).loc main_arg5)) :=
  (W6_of_ne m ρ c main_arg5 (by decide)).trans (at5_arg5 m ρ c)

theorem at6_arg6 : W6 m ρ c (Proc.devRef .tc main_arg6) = (m ((c : Thread nD τ).loc main_arg6)) :=
  (W6_of_ne m ρ c main_arg6 (by decide)).trans (at5_arg6 m ρ c)

/-! ## After the second dense product -/

theorem at7_v48 : W7 m ρ c (Proc.devRef .tc main_v48) = val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W7_arr m ρ c 2).trans ((RegionValue.final2 (V6 m ρ) c).trans
    ((congrArg₂ GcnSpec.linear (at6_v47 m ρ c) (at6_arg5 m ρ c)).trans (RefBridge.linear2 _ _ _ _ _).symm))

theorem at7_v5 : W7 m ρ c (Proc.devRef .tc main_v5) = val_main_v5 (F := Ideal) (m ((c : Thread nD τ).loc main_arg1)) :=
  (W7_of_ne m ρ c main_v5 (by decide)).trans (at6_v5 m ρ c)

theorem at7_v6 : W7 m ρ c (Proc.devRef .tc main_v6) = val_main_v6 (F := Ideal) (m ((c : Thread nD τ).loc main_arg1)) :=
  (W7_of_ne m ρ c main_v6 (by decide)).trans (at6_v6 m ρ c)

theorem at7_v31 : W7 m ρ c (Proc.devRef .tc main_v31) = val_main_v31 (F := Ideal) (m ((c : Thread nD τ).loc main_arg1)) :=
  (W7_of_ne m ρ c main_v31 (by decide)).trans (at6_v31 m ρ c)

theorem at7_arg2 : W7 m ρ c (Proc.devRef .tc main_arg2) = (m ((c : Thread nD τ).loc main_arg2)) :=
  (W7_of_ne m ρ c main_arg2 (by decide)).trans (at6_arg2 m ρ c)

theorem at7_arg6 : W7 m ρ c (Proc.devRef .tc main_arg6) = (m ((c : Thread nD τ).loc main_arg6)) :=
  (W7_of_ne m ρ c main_arg6 (by decide)).trans (at6_arg6 m ρ c)

/-! ## The second layer's aggregate and its bias row -/

theorem at8_v61 : W8 m ρ c (Proc.devRef .tc main_v61) = val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  HostStretch.aggregate2 (F := Ideal) (W7 m ρ c) _ _ _ _ _ (at7_v48 m ρ c) (at7_v5 m ρ c) (at7_v6 m ρ c) (at7_v31 m ρ c)

theorem at8_v62 : W8 m ρ c (Proc.devRef .tc main_v62) = shapeCast S1x128 (m ((c : Thread nD τ).loc main_arg6)) shapeCasts_S128_S1x128 :=
  HostStretch.biasRow2 (F := Ideal) (W7 m ρ c) _ (at7_arg6 m ρ c)

theorem at8_arg2 : W8 m ρ c (Proc.devRef .tc main_arg2) = (m ((c : Thread nD τ).loc main_arg2)) :=
  (HostStretch.aggregate2_keeps_arg2 (F := Ideal) (W7 m ρ c)).trans (at7_arg2 m ρ c)

/-! ## After the second bias and cut -/

theorem at9_v63 : W9 m ρ c (Proc.devRef .tc main_v63) = val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W9_arr m ρ c 2).trans ((RegionValue.final3 (V8 m ρ) c).trans
    ((congrArg₂ GcnSpec.biasRelu (at8_v61 m ρ c) (at8_v62 m ρ c)).trans (RefBridge.biasRelu2 _ _ _ _ _ _ shapeCasts_S128_S1x128).symm))

theorem at9_arg2 : W9 m ρ c (Proc.devRef .tc main_arg2) = (m ((c : Thread nD τ).loc main_arg2)) :=
  (W9_of_ne m ρ c main_arg2 (by decide)).trans (at8_arg2 m ρ c)

/-! ## The decoder's two gathers -/

theorem at10_v74 : W10 m ρ c (Proc.devRef .tc main_v74) = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  HostStretch.decoderRows1 (F := Ideal) (W9 m ρ c) _ _ _ _ _ _ _ (at9_v63 m ρ c) (at9_arg2 m ρ c)

theorem at10_v81 : W10 m ρ c (Proc.devRef .tc main_v81) = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  HostStretch.decoderRows2 (F := Ideal) (W9 m ρ c) _ _ _ _ _ _ _ (at9_v63 m ρ c) (at9_arg2 m ρ c)

/-! ## After the decoder -/

theorem at11_v82 : W11 m ρ c (Proc.devRef .tc main_v82)
    = GcnSpec.edgeDot (val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (W11_arr m ρ c 2).trans ((RegionValue.final4 (V10 m ρ) c).trans
    (congrArg₂ GcnSpec.edgeDot (at10_v74 m ρ c) (at10_v81 m ρ c)))

/-! ## The result -/

/-- What the result buffer holds at the end of the run: the reference's last stage, of the launch arguments. -/
theorem result : W12 m ρ c (Proc.devRef .tc main_v83) = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (HostStretch.flattened (F := Ideal) (W11 m ρ c) _ (at11_v82 m ρ c)).trans
    (RefBridge.edgeDot1 _ _ _ _ _ _ _ shapeCasts_S100000x1_S100000).symm

end Cert.KernelIdeal.Chain

end
-- ==== Proof.lean ====
/- A two-layer graph convolution with an edge decoder, against its plain reference, over the extended reals.

   Both programs first append a self-loop to every node, count each node's in-degree, and give every edge the
   normalisation 1/sqrt(deg source) · 1/sqrt(deg destination) (zero where a degree is zero). A layer is then:
   the node features times a weight matrix; each edge carries its source's row of that product, scaled by the edge's
   normalisation, and the rows arriving at a node are summed; the layer's bias is added to every row and the negative
   part is cut off. After two layers the decoder takes, for every labelled edge, the inner product of the two end
   nodes' rows.

   The kernel runs five grid regions — the two dense products, the two bias-and-cut steps, the decoder's inner
   products — among host stretches that do the degree count, the gathers and the row sums. The reference does
   everything on the host. Over the extended reals the two compute the same function of the arguments, and no law
   of arithmetic is needed beyond 0 + x = x: a dense product is the same sum over the contracted index on both
   sides, a change of float format is the identity, the bias row reshaped or broadcast reads the same entry, and a
   row of products summed along the lanes is the host's sum over the last axis. So the inputs' finiteness is never
   opened.

   How the claim is assembled. The three frames: the two kernel programs' are the generated ones; the reference's is
   its run with the result dropped. Nothing was rewritten between the kernel and its idealization. For the value:
   the kernel's run is launched once more with the result buffer read off the last boundary (KernelLaunch); the
   contents of that boundary are followed back through the regions and stretches to the launch arguments
   (KernelChain, over RegionLinear, RegionBiasRelu, RegionEdgeDot for the regions, KernelHost for the stretches and
   RefBridge for the five places where the reference does on the host what a region does); they are the reference's
   last stage, which is what the reference's run ends with. -/
import proofs.«143984_j25400436589171_1_alg».proof.Defs
import proofs.«143984_j25400436589171_1_alg».proof.Proof.Gen.Kernel
import proofs.«143984_j25400436589171_1_alg».proof.Proof.Gen.Kernel.Frame
import proofs.«143984_j25400436589171_1_alg».proof.Proof.Gen.KernelIdeal
import proofs.«143984_j25400436589171_1_alg».proof.Proof.Gen.KernelIdeal.Frame
import proofs.«143984_j25400436589171_1_alg».proof.Proof.Gen.ReferenceIdeal
import proofs.«143984_j25400436589171_1_alg».proof.Proof.Gen.Pre_finite_inputs
import proofs.«143984_j25400436589171_1_alg».proof.Proof.KernelLaunch
import proofs.«143984_j25400436589171_1_alg».proof.Proof.KernelChain
import proofs.«143984_j25400436589171_1_alg».proof.Proof.RefRun
import proofs.«143984_j25400436589171_1_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the reference's last stage of those arguments
    in their result buffers. -/
theorem algebraic : Cert.algebraic_KernelIdeal_ReferenceIdeal := by
  intro m ρ m' ρ' _ hagree
  refine ⟨fun c => Cert.ReferenceIdeal.ReadP.val_main_v115 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run (Cert.KernelIdeal.defs (F := Ideal)) _ _).mono
      (fun r h c => ⟨(h c).1.trans (Cert.KernelIdeal.Chain.result m ρ c), (h c).2⟩)
      (Cert.KernelIdeal.Launch.run_result (F := Ideal) m ρ)
  · refine (θ_run (Cert.ReferenceIdeal.defs (F := Ideal)) _ _).mono (fun r h c => ⟨(h c).1.trans ?_, (h c).2⟩)
      (Cert.ReferenceIdeal.ValueP.run (F := Ideal) m' ρ')
    rw [Cert.ReferenceIdeal.ReadP.val_main_v115_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
